-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x64 : Shape := ⟨4, ![8, 64, 512, 64]⟩
abbrev S1x64x1x1 : Shape := ⟨4, ![1, 64, 1, 1]⟩
abbrev S_ : Shape := ⟨0, ![]⟩

class Facts : Prop where
  bcast_S_S8x64x512x64 : S_.BroadcastsInDim S8x64x512x64 (![] : Fin 0 → Fin S8x64x512x64.rank)
  reducesTo_S8x64x512x64_S_d0_1_2_3 : S8x64x512x64.ReducesTo [0, 1, 2, 3] S_
  h_S_ : 0 < S_.numel
  bcast_S_S1x64x1x1 : S_.BroadcastsInDim S1x64x1x1 (![] : Fin 0 → Fin S1x64x1x1.rank)
  reducesTo_S1x64x1x1_S_d0_1_2_3 : S1x64x1x1.ReducesTo [0, 1, 2, 3] S_

variable [Facts]

def fn {F : FTy → Type} [FloatOps F] (main_arg0 : FVec F S8x64x512x64 .f32) (main_arg1 : FVec F S1x64x1x1 .f32) (main_arg2 : FVec F S1x64x1x1 .f32) : IVec S_ 1 :=
  let main_v0 : FVec F S8x64x512x64 .f32 := Host.absf main_arg0
  let main_cst : FVec F S_ .f32 := constant S_ .f32 0x7F800000#32
  let main_v1 : FVec F S8x64x512x64 .f32 := broadcastInDim S8x64x512x64 ![] bcast_S_S8x64x512x64 main_cst
  let main_v2 : IVec S8x64x512x64 1 := cmpf .olt main_v0 main_v1
  let main_c : IVec S_ 1 := constantI S_ 1 1#1
  let main_v3 : IVec S_ 1 := (fun x v => Host.reduce IntOp.andi x v reducesTo_S8x64x512x64_S_d0_1_2_3 h_S_) main_v2 main_c
  let main_v4 : FVec F S1x64x1x1 .f32 := Host.absf main_arg1
  let main_cst_0 : FVec F S_ .f32 := constant S_ .f32 0x7F800000#32
  let main_v5 : FVec F S1x64x1x1 .f32 := broadcastInDim S1x64x1x1 ![] bcast_S_S1x64x1x1 main_cst_0
  let main_v6 : IVec S1x64x1x1 1 := cmpf .olt main_v4 main_v5
  let main_c_1 : IVec S_ 1 := constantI S_ 1 1#1
  let main_v7 : IVec S_ 1 := (fun x v => Host.reduce IntOp.andi x v reducesTo_S1x64x1x1_S_d0_1_2_3 h_S_) main_v6 main_c_1
  let main_v8 : IVec S_ 1 := andi main_v3 main_v7
  let main_v9 : FVec F S1x64x1x1 .f32 := Host.absf main_arg2
  let main_cst_2 : FVec F S_ .f32 := constant S_ .f32 0x7F800000#32
  let main_v10 : FVec F S1x64x1x1 .f32 := broadcastInDim S1x64x1x1 ![] bcast_S_S1x64x1x1 main_cst_2
  let main_v11 : IVec S1x64x1x1 1 := cmpf .olt main_v9 main_v10
  let main_c_3 : IVec S_ 1 := constantI S_ 1 1#1
  let main_v12 : IVec S_ 1 := (fun x v => Host.reduce IntOp.andi x v reducesTo_S1x64x1x1_S_d0_1_2_3 h_S_) main_v11 main_c_3
  let main_v13 : IVec S_ 1 := andi main_v8 main_v12
  main_v13
-- ==== Kernel.lean ====
abbrev S8x64x512x64 : Shape := ⟨4, ![8, 64, 512, 64]⟩
abbrev S1x64x1x1 : Shape := ⟨4, ![1, 64, 1, 1]⟩
abbrev S512x512x64 : Shape := ⟨3, ![512, 512, 64]⟩
abbrev S64 : Shape := ⟨1, ![64]⟩
abbrev S4x1x16 : Shape := ⟨3, ![4, 1, 16]⟩
abbrev S16x512x64 : Shape := ⟨3, ![16, 512, 64]⟩
abbrev S1x1x16 : Shape := ⟨3, ![1, 1, 16]⟩
abbrev S16 : Shape := ⟨1, ![16]⟩
abbrev S16x64x64 : Shape := ⟨3, ![16, 64, 64]⟩
abbrev S16x1x1 : Shape := ⟨3, ![16, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x64x512x64, .f32⟩
  | .hbm, ⟨1, _⟩ => ⟨S1x64x1x1, .f32⟩
  | .hbm, ⟨2, _⟩ => ⟨S1x64x1x1, .f32⟩
  | .hbm, ⟨3, _⟩ => ⟨S512x512x64, .f32⟩
  | .hbm, ⟨4, _⟩ => ⟨S64, .f32⟩
  | .hbm, ⟨5, _⟩ => ⟨S64, .f32⟩
  | .hbm, ⟨6, _⟩ => ⟨S4x1x16, .f32⟩
  | .hbm, ⟨7, _⟩ => ⟨S4x1x16, .f32⟩
  | .hbm, ⟨8, _⟩ => ⟨S512x512x64, .f32⟩
  | .hbm, ⟨9, _⟩ => ⟨S8x64x512x64, .f32⟩
  | .local _ .vmem, ⟨0, _⟩ => ⟨S16x512x64, .f32⟩
  | .local _ .vmem, ⟨1, _⟩ => ⟨S16x512x64, .f32⟩
  | .local _ .vmem, ⟨2, _⟩ => ⟨S1x1x16, .f32⟩
  | .local _ .vmem, ⟨3, _⟩ => ⟨S1x1x16, .f32⟩
  | .local _ .vmem, ⟨4, _⟩ => ⟨S1x1x16, .f32⟩
  | .local _ .vmem, ⟨5, _⟩ => ⟨S1x1x16, .f32⟩
  | .local _ .vmem, ⟨6, _⟩ => ⟨S16x512x64, .f32⟩
  | .local _ .vmem, ⟨7, _⟩ => ⟨S16x512x64, .f32⟩
  | _, _ => ⟨S8x64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x64x512x64_S512x512x64 : S8x64x512x64.ShapeCasts S512x512x64
  shapeCasts_S1x64x1x1_S64 : S1x64x1x1.ShapeCasts S64
  shapeCasts_S64_S4x1x16 : S64.ShapeCasts S4x1x16
  inb_S16x512x64_S16x512x64_0_0_0 : ∀ a, (![0, 0, 0] : Fin 3 → Nat) a + S16x512x64.size a ≤ S16x512x64.size a
  h_S16x512x64 : 0 < S16x512x64.numel
  shapeCasts_S16x512x64_S16x512x64 : S16x512x64.ShapeCasts S16x512x64
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  shapeCasts_S16_S16x1x1 : S16.ShapeCasts S16x1x1
  broadcasts_S16x1x1_S16x64x64 : S16x1x1.Broadcasts S16x64x64
  shapeCasts_S512x512x64_S8x64x512x64 : S512x512x64.ShapeCasts S8x64x512x64
  dot_S16x512x64_S16x512x64_S16x64x64_1_1_2_2_0_0_wf : DotDims.WF S16x512x64 S16x512x64 S16x64x64 [1] [1] [2] [2] [0] [0]
  dot_S16x64x64_S16x64x64_S16x64x64_2_1_1_2_0_0_wf : DotDims.WF S16x64x64 S16x64x64 S16x64x64 [2] [1] [1] [2] [0] [0]
  dot_S16x512x64_S16x64x64_S16x512x64_2_1_1_2_0_0_wf : DotDims.WF S16x512x64 S16x64x64 S16x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x64.size a ≤ S512x512x64.size a
  hwx0_0 : ∀ i : grid0.Coords, EltTy.bits .f32 = 32 ∨ (Rect.block (s := S512x512x64) S16x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16.size a ≤ S4x1x16.size a
  hwx0_1 : ∀ i : grid0.Coords, EltTy.bits .f32 = 32 ∨ (Rect.block (s := S4x1x16) S1x1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16.size a ≤ S4x1x16.size a
  hwx0_2 : ∀ i : grid0.Coords, EltTy.bits .f32 = 32 ∨ (Rect.block (s := S4x1x16) S1x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x64.size a ≤ S512x512x64.size a
  hwx0_3 : ∀ i : grid0.Coords, EltTy.bits .f32 = 32 ∨ (Rect.block (s := S512x512x64) S16x512x64.size (cc0_transform_3 i) (hinb0_3 i)).WholeWords (EltTy.packing .f32)

variable [Facts₀]

def dot_S16x512x64_S16x512x64_S16x64x64_1_1_2_2_0_0 : DotDims S16x512x64 S16x512x64 S16x64x64 where
  lhsContracting := [1]
  rhsContracting := [1]
  lhsNonContracting := [2]
  rhsNonContracting := [2]
  lhsBatch := [0]
  rhsBatch := [0]
  wf := dot_S16x512x64_S16x512x64_S16x64x64_1_1_2_2_0_0_wf
def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def dot_S16x512x64_S16x64x64_S16x512x64_2_1_1_2_0_0 : DotDims S16x512x64 S16x64x64 S16x512x64 where
  lhsContracting := [2]
  rhsContracting := [1]
  lhsNonContracting := [1]
  rhsNonContracting := [2]
  lhsBatch := [0]
  rhsBatch := [0]
  wf := dot_S16x512x64_S16x64x64_S16x512x64_2_1_1_2_0_0_wf

abbrev win0_0 : Pipeline.Window sig grid0 :=
  Pipeline.Window.ofSpec (Memref.whole main_v0) S16x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x512x64 : Shape := ⟨4, ![8, 64, 512, 64]⟩
abbrev S1x64x1x1 : Shape := ⟨4, ![1, 64, 1, 1]⟩
abbrev S8x64x512x512 : Shape := ⟨4, ![8, 64, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S8x64x512x64, .f32⟩
  | .hbm, ⟨1, _⟩ => ⟨S1x64x1x1, .f32⟩
  | .hbm, ⟨2, _⟩ => ⟨S1x64x1x1, .f32⟩
  | .hbm, ⟨3, _⟩ => ⟨S8x64x512x512, .f32⟩
  | .hbm, ⟨4, _⟩ => ⟨S8x64x512x512, .f32⟩
  | .hbm, ⟨5, _⟩ => ⟨S1x64x1x1, .f32⟩
  | .hbm, ⟨6, _⟩ => ⟨S8x64x512x512, .f32⟩
  | .hbm, ⟨7, _⟩ => ⟨S8x64x512x512, .f32⟩
  | .hbm, ⟨8, _⟩ => ⟨S8x64x512x512, .f32⟩
  | .hbm, ⟨9, _⟩ => ⟨S8x64x512x512, .f32⟩
  | .hbm, ⟨10, _⟩ => ⟨S8x64x512x512, .f32⟩
  | .hbm, ⟨11, _⟩ => ⟨S8x64x512x64, .f32⟩
  | .hbm, ⟨12, _⟩ => ⟨S8x64x512x64, .f32⟩
  | _, _ => ⟨S8x64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S1x64x1x1_S8x64x512x512_0_1_2_3 : S1x64x1x1.BroadcastsInDim S8x64x512x512 (![0, 1, 2, 3] : Fin 4 → Fin S8x64x512x512.rank)
  dot_S8x64x512x64_S8x64x512x64_S8x64x512x512_3_3_2_2_01_01_wf : DotDims.WF S8x64x512x64 S8x64x512x64 S8x64x512x512 [3] [3] [2] [2] [0, 1] [0, 1]
  dot_S8x64x512x512_S8x64x512x512_S8x64x512x512_3_2_2_3_01_01_wf : DotDims.WF S8x64x512x512 S8x64x512x512 S8x64x512x512 [3] [2] [2] [3] [0, 1] [0, 1]
  dot_S8x64x512x512_S8x64x512x64_S8x64x512x64_3_2_2_3_01_01_wf : DotDims.WF S8x64x512x512 S8x64x512x64 S8x64x512x64 [3] [2] [2] [3] [0, 1] [0, 1]

variable [Facts₀]

def dot_S8x64x512x64_S8x64x512x64_S8x64x512x512_3_3_2_2_01_01 : DotDims S8x64x512x64 S8x64x512x64 S8x64x512x512 where
  lhsContracting := [3]
  rhsContracting := [3]
  lhsNonContracting := [2]
  rhsNonContracting := [2]
  lhsBatch := [0, 1]
  rhsBatch := [0, 1]
  wf := dot_S8x64x512x64_S8x64x512x64_S8x64x512x512_3_3_2_2_01_01_wf
def dot_S8x64x512x512_S8x64x512x512_S8x64x512x512_3_2_2_3_01_01 : DotDims S8x64x512x512 S8x64x512x512 S8x64x512x512 where
  lhsContracting := [3]
  rhsContracting := [2]
  lhsNonContracting := [2]
  rhsNonContracting := [3]
  lhsBatch := [0, 1]
  rhsBatch := [0, 1]
  wf := dot_S8x64x512x512_S8x64x512x512_S8x64x512x512_3_2_2_3_01_01_wf
def dot_S8x64x512x512_S8x64x512x64_S8x64x512x64_3_2_2_3_01_01 : DotDims S8x64x512x512 S8x64x512x64 S8x64x512x64 where
  lhsContracting := [3]
  rhsContracting := [2]
  lhsNonContracting := [2]
  rhsNonContracting := [3]
  lhsBatch := [0, 1]
  rhsBatch := [0, 1]
  wf := dot_S8x64x512x512_S8x64x512x64_S8x64x512x64_3_2_2_3_01_01_wf

class Facts : Prop extends Facts₀ where

variable [Facts]
-- ==== Proof.GramSpec.lean ====
/-
  The mathematics of this certificate, with no program in sight.

  One (batch, channel) slice is a matrix `X` of `N` rows and `D` columns, and the channel carries two scalars `a`, `b`.
  The kernel forms the small Gram matrix `S = Xᵀ X` (`D × D`), its square `S S`, the mix `(0 - a) • S + b • S S`,
  and returns `X + X (mix)`.  The reference forms the large outer matrix `A = X Xᵀ` (`N × N`), its square `A A`, the
  mix `(-a) • A + b • A A`, and returns `X + (mix) X`.  Both are `X - a • (X Xᵀ X) + b • (X Xᵀ X Xᵀ X)`: the two
  differ only in where the products are bracketed, which is associativity of the matrix product together with its
  linearity in each factor.  Those laws move factors across sums, which the extended reals allow only away from the
  infinities; so the law is stated for entries that are real numbers, and proved in the reals.
-/
import Mathlib.Data.Matrix.Mul
import Mathlib.Data.EReal.Operations

noncomputable section

namespace Cert.GramSpec

variable {N D : Type} [Fintype N] [Fintype D]

/-! ## The two sides, entry by entry, over the extended reals -/

/-- The Gram matrix of the columns: entry `(d, e)` is the sum over rows of the products of columns `d` and `e`. -/
def gram (X : N → D → EReal) (d e : D) : EReal := ∑ n : N, X n d * X n e

/-- The Gram matrix times itself. -/
def gramSq (X : N → D → EReal) (d f : D) : EReal := ∑ e : D, gram X d e * gram X e f

/-- The kernel's `D × D` mix: `(0 - a)` times the Gram matrix plus `b` times its square. -/
def kerMix (a b : EReal) (X : N → D → EReal) (d e : D) : EReal := (0 - a) * gram X d e + b * gramSq X d e

/-- The kernel's slice: the input plus the input times the mix (a sum over the `D` columns). -/
def kerSlice (a b : EReal) (X : N → D → EReal) (n : N) (e : D) : EReal := X n e + ∑ d : D, X n d * kerMix a b X d e

/-- The outer matrix of the rows: entry `(n, m)` is the sum over columns of the products of rows `n` and `m`. -/
def outer (X : N → D → EReal) (n m : N) : EReal := ∑ d : D, X n d * X m d

/-- The outer matrix times itself. -/
def outerSq (X : N → D → EReal) (n m : N) : EReal := ∑ k : N, outer X n k * outer X k m

/-- The reference's `N × N` mix: `-a` times the outer matrix plus `b` times its square. -/
def refMix (a b : EReal) (X : N → D → EReal) (n m : N) : EReal := (-a) * outer X n m + b * outerSq X n m

/-- The reference's slice: the input plus the mix times the input (a sum over the `N` rows). -/
def refSlice (a b : EReal) (X : N → D → EReal) (n : N) (e : D) : EReal := X n e + ∑ m : N, refMix a b X n m * X m e

/-! ## The law, in the reals -/

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Associativity and linearity of the matrix product: the mix may be formed on either side of `M`. -/
theorem mix_comm (c₁ c₂ : ℝ) (M : Matrix N D ℝ) :
    (c₁ • (M * M.transpose) + c₂ • ((M * M.transpose) * (M * M.transpose))) * M
      = M * (c₁ • (M.transpose * M) + c₂ • ((M.transpose * M) * (M.transpose * M))) := by
  simp only [Matrix.add_mul, Matrix.mul_add, Matrix.smul_mul, Matrix.mul_smul, Matrix.mul_assoc]

/-- On real entries the kernel's slice and the reference's slice are one number at every entry. -/
theorem kerSlice_eq_refSlice (a b : ℝ) (X : N → D → ℝ) (n : N) (e : D) :
    kerSlice (a : EReal) (b : EReal) (fun n d => (X n d : EReal)) n e
      = refSlice (a : EReal) (b : EReal) (fun n d => (X n d : EReal)) n e := by
  have hk : kerSlice (a : EReal) (b : EReal) (fun n d => (X n d : EReal)) n e
      = ((X n e + ((Matrix.of X) * ((-a) • ((Matrix.of X).transpose * (Matrix.of X))
          + b • (((Matrix.of X).transpose * (Matrix.of X)) * ((Matrix.of X).transpose * (Matrix.of X))))) n e : ℝ) : EReal) := by
    simp only [kerSlice, kerMix, gramSq, gram, Matrix.mul_apply, Matrix.add_apply, Matrix.smul_apply, smul_eq_mul,
      Matrix.transpose_apply, Matrix.of_apply, EReal.coe_add, EReal.coe_mul, coe_sum, EReal.coe_neg, zero_sub]
  have hr : refSlice (a : EReal) (b : EReal) (fun n d => (X n d : EReal)) n e
      = ((X n e + ((((-a) • ((Matrix.of X) * (Matrix.of X).transpose)
          + b • (((Matrix.of X) * (Matrix.of X).transpose) * ((Matrix.of X) * (Matrix.of X).transpose))) * (Matrix.of X)) n e) : ℝ) : EReal) := by
    simp only [refSlice, refMix, outerSq, outer, Matrix.mul_apply, Matrix.add_apply, Matrix.smul_apply, smul_eq_mul,
      Matrix.transpose_apply, Matrix.of_apply, EReal.coe_add, EReal.coe_mul, coe_sum, EReal.coe_neg]
  rw [hk, hr, mix_comm]

/-- The same for extended-real entries known to be real: what finiteness of the inputs gives. -/
theorem kerSlice_eq_refSlice_of_real (a b : EReal) (X : N → D → EReal) (ha : ∃ r : ℝ, a = r) (hb : ∃ r : ℝ, b = r)
    (hX : ∀ n d, ∃ r : ℝ, X n d = r) (n : N) (e : D) : kerSlice a b X n e = refSlice a b X n e := by
  obtain ⟨ar, rfl⟩ := ha
  obtain ⟨br, rfl⟩ := hb
  choose Xr hXr using hX
  have hfun : X = fun n d => (Xr n d : EReal) := funext fun n => funext fun d => hXr n d
  rw [hfun]
  exact kerSlice_eq_refSlice ar br Xr n e

end Cert.GramSpec

end
-- ==== Proof.RefSide.lean ====
/-
  The reference, read at an index.

  At the entry `(β, c, n, e)` of its result the reference program returns the reference's slice (Proof/GramSpec.lean
  `refSlice`) of the `(β, c)` slice of its first argument, with the scalars its second and third arguments hold at
  channel `c`: the first contraction is the outer matrix of the slice's rows (a sum over the 64 columns), the second
  that matrix times itself (a sum over the 512 rows), the two broadcasts read channel `c` of the scalars, and the last
  contraction is the mix times the slice (a sum over the 512 rows).
-/
import proofs.«409281_j68375879352764_4_alg».proof.Proof.Gen.ReferenceIdeal.Read
import proofs.«409281_j68375879352764_4_alg».proof.Proof.GramSpec

noncomputable section

namespace Cert.ReferenceIdeal.RefValue

open Cert.ReferenceIdeal Cert.ReferenceIdeal.Read Idealize.ShloMosaic Idealize.ShloMosaic.ValueIdx Cert.GramSpec

/-! ## Where each operation reads its operands, in coordinates -/

theorem lidx_v8 (β : Fin 8) (c : Fin 64) (n : Fin 512) (e : Fin 64) (m : Fin 512) :
    lidx_main_v8 (ix4 β c n e) m = ix4 β c n m :=
  funext fun a => Fin.ext (by match a with | ⟨0, _⟩ => rfl | ⟨1, _⟩ => rfl | ⟨2, _⟩ => rfl | ⟨3, _⟩ => rfl)

theorem ridx_v8 (β : Fin 8) (c : Fin 64) (n : Fin 512) (e : Fin 64) (m : Fin 512) :
    ridx_main_v8 (ix4 β c n e) m = ix4 β c m e :=
  funext fun a => Fin.ext (by match a with | ⟨0, _⟩ => rfl | ⟨1, _⟩ => rfl | ⟨2, _⟩ => rfl | ⟨3, _⟩ => rfl)

theorem lidx_v1 (β : Fin 8) (c : Fin 64) (n m k : Fin 512) :
    lidx_main_v1 (ix4 β c n m) k = ix4 β c n k :=
  funext fun a => Fin.ext (by match a with | ⟨0, _⟩ => rfl | ⟨1, _⟩ => rfl | ⟨2, _⟩ => rfl | ⟨3, _⟩ => rfl)

theorem ridx_v1 (β : Fin 8) (c : Fin 64) (n m k : Fin 512) :
    ridx_main_v1 (ix4 β c n m) k = ix4 β c k m :=
  funext fun a => Fin.ext (by match a with | ⟨0, _⟩ => rfl | ⟨1, _⟩ => rfl | ⟨2, _⟩ => rfl | ⟨3, _⟩ => rfl)

theorem lidx_v0 (β : Fin 8) (c : Fin 64) (n m : Fin 512) (d : Fin 64) :
    lidx_main_v0 (ix4 β c n m) d = ix4 β c n d :=
  funext fun a => Fin.ext (by match a with | ⟨0, _⟩ => rfl | ⟨1, _⟩ => rfl | ⟨2, _⟩ => rfl | ⟨3, _⟩ => rfl)

theorem ridx_v0 (β : Fin 8) (c : Fin 64) (n m : Fin 512) (d : Fin 64) :
    ridx_main_v0 (ix4 β c n m) d = ix4 β c m d :=
  funext fun a => Fin.ext (by match a with | ⟨0, _⟩ => rfl | ⟨1, _⟩ => rfl | ⟨2, _⟩ => rfl | ⟨3, _⟩ => rfl)

theorem idx_v3 (β : Fin 8) (c : Fin 64) (n m : Fin 512) :
    idx_main_v3 (ix4 β c n m) = ix4 (0 : Fin 1) c (0 : Fin 1) (0 : Fin 1) :=
  funext fun a => Fin.ext (by match a with | ⟨0, _⟩ => rfl | ⟨1, _⟩ => rfl | ⟨2, _⟩ => rfl | ⟨3, _⟩ => rfl)

theorem idx_v5 (β : Fin 8) (c : Fin 64) (n m : Fin 512) :
    idx_main_v5 (ix4 β c n m) = ix4 (0 : Fin 1) c (0 : Fin 1) (0 : Fin 1) :=
  funext fun a => Fin.ext (by match a with | ⟨0, _⟩ => rfl | ⟨1, _⟩ => rfl | ⟨2, _⟩ => rfl | ⟨3, _⟩ => rfl)

/-! ## The stages as the specification's matrices -/

variable (x0 : (⟨S8x64x512x64, .f32⟩ : BufTy).Contents (Elt Ideal)) (x1 x2 : (⟨S1x64x1x1, .f32⟩ : BufTy).Contents (Elt Ideal))

/-- The `(β, c)` slice of the first argument: 512 rows of 64 columns. -/
abbrev slice (β : Fin 8) (c : Fin 64) : Fin 512 → Fin 64 → EReal := fun n d => x0 (ix4 β c n d)

/-- The first contraction is the outer matrix of the slice's rows. -/
theorem outer_apply (β : Fin 8) (c : Fin 64) (n m : Fin 512) :
    val_main_v0 (F := Ideal) x0 (ix4 β c n m) = outer (slice x0 β c) n m := by
  rw [val_main_v0_apply]
  simp only [lidx_v0, ridx_v0]
  rfl

/-- The second contraction is the outer matrix times itself. -/
theorem outerSq_apply (β : Fin 8) (c : Fin 64) (n m : Fin 512) :
    val_main_v1 (F := Ideal) x0 (ix4 β c n m) = outerSq (slice x0 β c) n m := by
  rw [val_main_v1_apply]
  simp only [lidx_v1, ridx_v1, outer_apply]
  rfl

/-- The mix: minus the first scalar times the outer matrix plus the second scalar times its square, at channel `c`. -/
theorem mix_apply (β : Fin 8) (c : Fin 64) (n m : Fin 512) :
    val_main_v7 (F := Ideal) x0 x1 x2 (ix4 β c n m)
      = refMix (x1 (ix4 (0 : Fin 1) c (0 : Fin 1) (0 : Fin 1))) (x2 (ix4 (0 : Fin 1) c (0 : Fin 1) (0 : Fin 1))) (slice x0 β c) n m := by
  rw [val_main_v7_apply, val_main_v4_apply, val_main_v6_apply, val_main_v3_apply, val_main_v2_apply, val_main_v5_apply,
    outer_apply, outerSq_apply, idx_v3, idx_v5]
  rfl

/-- The reference's result at `(β, c, n, e)` is the reference's slice of the specification. -/
theorem result_apply (β : Fin 8) (c : Fin 64) (n : Fin 512) (e : Fin 64) :
    val_main_v9 (F := Ideal) x0 x1 x2 (ix4 β c n e)
      = refSlice (x1 (ix4 (0 : Fin 1) c (0 : Fin 1) (0 : Fin 1))) (x2 (ix4 (0 : Fin 1) c (0 : Fin 1) (0 : Fin 1))) (slice x0 β c) n e := by
  rw [val_main_v9_apply, val_main_v8_apply]
  simp only [lidx_v8, ridx_v8, mix_apply]
  rfl

end Cert.ReferenceIdeal.RefValue

end
-- ==== Proof.KernelPayload.lean ====
/-
  What the kernel body stores, read at an index.

  The body loads a block of 16 channel slices (each 512 rows by 64 columns) and two blocks of 16 scalars, and stores one
  block. Per channel `q` it forms the Gram matrix of the slice's columns (a contraction over the 512 rows), that matrix
  times itself (a contraction over 64), the mix `(0 - a_q)` times the first plus `b_q` times the second, and adds to the
  slice the slice times the mix (a contraction over 64). Each contraction into a zero accumulator is a plain sum at the
  ideal instance; the scalars reach the `[16, 64, 64]` vectors through shape casts that keep the row-major position and a
  broadcast along the last two axes. Together: the stored value at `(q, n, e)` is the kernel's slice function
  (Proof/GramSpec.lean `kerSlice`) of channel `q`.
-/
import proofs.«409281_j68375879352764_4_alg».proof.Proof.Gen.KernelIdeal.Frame
import proofs.«409281_j68375879352764_4_alg».proof.Proof.GramSpec
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx Cert.GramSpec

/-! ## The three contractions of the body, each read at an index -/

theorem lhs_gram_0 (i : S16x64x64.Idx) (k : dot_S16x512x64_S16x512x64_S16x64x64_1_1_2_2_0_0.contr.Idx) :
    (dot_S16x512x64_S16x512x64_S16x64x64_1_1_2_2_0_0.lhsIdx i k 0).val = (i 0).val := by
  unfold DotDims.lhsIdx
  rw [dif_pos (show (0 : Fin S16x512x64.rank) ∈ dot_S16x512x64_S16x512x64_S16x64x64_1_1_2_2_0_0.lhsBatch by decide)]
  rfl
theorem lhs_gram_1 (i : S16x64x64.Idx) (k : dot_S16x512x64_S16x512x64_S16x64x64_1_1_2_2_0_0.contr.Idx) :
    (dot_S16x512x64_S16x512x64_S16x64x64_1_1_2_2_0_0.lhsIdx i k 1).val = (k ⟨0, by decide⟩).val :=
  dot_S16x512x64_S16x512x64_S16x64x64_1_1_2_2_0_0.lhsIdx_val_of_single rfl i k
theorem lhs_gram_2 (i : S16x64x64.Idx) (k : dot_S16x512x64_S16x512x64_S16x64x64_1_1_2_2_0_0.contr.Idx) :
    (dot_S16x512x64_S16x512x64_S16x64x64_1_1_2_2_0_0.lhsIdx i k 2).val = (i 1).val := by
  unfold DotDims.lhsIdx
  rw [dif_neg (show ¬(2 : Fin S16x512x64.rank) ∈ dot_S16x512x64_S16x512x64_S16x64x64_1_1_2_2_0_0.lhsBatch by decide), dif_pos (show (2 : Fin S16x512x64.rank) ∈ dot_S16x512x64_S16x512x64_S16x64x64_1_1_2_2_0_0.lhsNonContracting by decide)]
  rfl
theorem rhs_gram_0 (i : S16x64x64.Idx) (k : dot_S16x512x64_S16x512x64_S16x64x64_1_1_2_2_0_0.contr.Idx) :
    (dot_S16x512x64_S16x512x64_S16x64x64_1_1_2_2_0_0.rhsIdx i k 0).val = (i 0).val := by
  unfold DotDims.rhsIdx
  rw [dif_pos (show (0 : Fin S16x512x64.rank) ∈ dot_S16x512x64_S16x512x64_S16x64x64_1_1_2_2_0_0.rhsBatch by decide)]
  rfl
theorem rhs_gram_1 (i : S16x64x64.Idx) (k : dot_S16x512x64_S16x512x64_S16x64x64_1_1_2_2_0_0.contr.Idx) :
    (dot_S16x512x64_S16x512x64_S16x64x64_1_1_2_2_0_0.rhsIdx i k 1).val = (k ⟨0, by decide⟩).val :=
  dot_S16x512x64_S16x512x64_S16x64x64_1_1_2_2_0_0.rhsIdx_val_of_single rfl i k
theorem rhs_gram_2 (i : S16x64x64.Idx) (k : dot_S16x512x64_S16x512x64_S16x64x64_1_1_2_2_0_0.contr.Idx) :
    (dot_S16x512x64_S16x512x64_S16x64x64_1_1_2_2_0_0.rhsIdx i k 2).val = (i 2).val := by
  unfold DotDims.rhsIdx
  rw [dif_neg (show ¬(2 : Fin S16x512x64.rank) ∈ dot_S16x512x64_S16x512x64_S16x64x64_1_1_2_2_0_0.rhsBatch by decide), dif_pos (show (2 : Fin S16x512x64.rank) ∈ dot_S16x512x64_S16x512x64_S16x64x64_1_1_2_2_0_0.rhsNonContracting by decide)]
  rfl

/-- The first contraction, over the 512 rows: entry `(q, d, e)` is the sum over rows `n` of `x (q, n, d) * y (q, n, e)`. -/
theorem rows_contract_apply (x y : FVec Ideal S16x512x64 .f32) (q : Fin 16) (d e : Fin 64) :
    matmul dot_S16x512x64_S16x512x64_S16x64x64_1_1_2_2_0_0 (some .fp32) x y (constant (F := Ideal) S16x64x64 .f32 0x00000000#32) (ix3 q d e)
      = ∑ n : Fin 512, x (ix3 q n d) * y (ix3 q n e) := by
  simp only [matmul]
  rw [Ideal.matmul_constant_zero_apply, ← Equiv.sum_comp (ValueIdx.contrEquiv1 dot_S16x512x64_S16x512x64_S16x64x64_1_1_2_2_0_0 512 rfl rfl).symm]
  refine Finset.sum_congr rfl fun k _ => ?_
  have hk := ValueIdx.contrEquiv1_symm_val dot_S16x512x64_S16x512x64_S16x64x64_1_1_2_2_0_0 512 rfl rfl k
  have el : dot_S16x512x64_S16x512x64_S16x64x64_1_1_2_2_0_0.lhsIdx (ix3 q d e) ((ValueIdx.contrEquiv1 dot_S16x512x64_S16x512x64_S16x64x64_1_1_2_2_0_0 512 rfl rfl).symm k) = ix3 q k d := funext fun a => Fin.ext (by
    match a with
    | ⟨0, _⟩ => exact lhs_gram_0 _ _
    | ⟨1, _⟩ => exact (lhs_gram_1 _ _).trans hk
    | ⟨2, _⟩ => exact lhs_gram_2 _ _)
  have er : dot_S16x512x64_S16x512x64_S16x64x64_1_1_2_2_0_0.rhsIdx (ix3 q d e) ((ValueIdx.contrEquiv1 dot_S16x512x64_S16x512x64_S16x64x64_1_1_2_2_0_0 512 rfl rfl).symm k) = ix3 q k e := funext fun a => Fin.ext (by
    match a with
    | ⟨0, _⟩ => exact rhs_gram_0 _ _
    | ⟨1, _⟩ => exact (rhs_gram_1 _ _).trans hk
    | ⟨2, _⟩ => exact rhs_gram_2 _ _)
  rw [el, er]

theorem lhs_sq_0 (i : S16x64x64.Idx) (k : dot_S16x64x64_S16x64x64_S16x64x64_2_1_1_2_0_0.contr.Idx) :
    (dot_S16x64x64_S16x64x64_S16x64x64_2_1_1_2_0_0.lhsIdx i k 0).val = (i 0).val := by
  unfold DotDims.lhsIdx
  rw [dif_pos (show (0 : Fin S16x64x64.rank) ∈ dot_S16x64x64_S16x64x64_S16x64x64_2_1_1_2_0_0.lhsBatch by decide)]
  rfl
theorem lhs_sq_1 (i : S16x64x64.Idx) (k : dot_S16x64x64_S16x64x64_S16x64x64_2_1_1_2_0_0.contr.Idx) :
    (dot_S16x64x64_S16x64x64_S16x64x64_2_1_1_2_0_0.lhsIdx i k 1).val = (i 1).val := by
  unfold DotDims.lhsIdx
  rw [dif_neg (show ¬(1 : Fin S16x64x64.rank) ∈ dot_S16x64x64_S16x64x64_S16x64x64_2_1_1_2_0_0.lhsBatch by decide), dif_pos (show (1 : Fin S16x64x64.rank) ∈ dot_S16x64x64_S16x64x64_S16x64x64_2_1_1_2_0_0.lhsNonContracting by decide)]
  rfl
theorem lhs_sq_2 (i : S16x64x64.Idx) (k : dot_S16x64x64_S16x64x64_S16x64x64_2_1_1_2_0_0.contr.Idx) :
    (dot_S16x64x64_S16x64x64_S16x64x64_2_1_1_2_0_0.lhsIdx i k 2).val = (k ⟨0, by decide⟩).val :=
  dot_S16x64x64_S16x64x64_S16x64x64_2_1_1_2_0_0.lhsIdx_val_of_single rfl i k
theorem rhs_sq_0 (i : S16x64x64.Idx) (k : dot_S16x64x64_S16x64x64_S16x64x64_2_1_1_2_0_0.contr.Idx) :
    (dot_S16x64x64_S16x64x64_S16x64x64_2_1_1_2_0_0.rhsIdx i k 0).val = (i 0).val := by
  unfold DotDims.rhsIdx
  rw [dif_pos (show (0 : Fin S16x64x64.rank) ∈ dot_S16x64x64_S16x64x64_S16x64x64_2_1_1_2_0_0.rhsBatch by decide)]
  rfl
theorem rhs_sq_1 (i : S16x64x64.Idx) (k : dot_S16x64x64_S16x64x64_S16x64x64_2_1_1_2_0_0.contr.Idx) :
    (dot_S16x64x64_S16x64x64_S16x64x64_2_1_1_2_0_0.rhsIdx i k 1).val = (k ⟨0, by decide⟩).val :=
  dot_S16x64x64_S16x64x64_S16x64x64_2_1_1_2_0_0.rhsIdx_val_of_single rfl i k
theorem rhs_sq_2 (i : S16x64x64.Idx) (k : dot_S16x64x64_S16x64x64_S16x64x64_2_1_1_2_0_0.contr.Idx) :
    (dot_S16x64x64_S16x64x64_S16x64x64_2_1_1_2_0_0.rhsIdx i k 2).val = (i 2).val := by
  unfold DotDims.rhsIdx
  rw [dif_neg (show ¬(2 : Fin S16x64x64.rank) ∈ dot_S16x64x64_S16x64x64_S16x64x64_2_1_1_2_0_0.rhsBatch by decide), dif_pos (show (2 : Fin S16x64x64.rank) ∈ dot_S16x64x64_S16x64x64_S16x64x64_2_1_1_2_0_0.rhsNonContracting by decide)]
  rfl

/-- The second contraction, over the 64 middle columns: entry `(q, d, f)` is the sum over `e` of `s (q, d, e) * u (q, e, f)`. -/
theorem cols_contract_apply (s u : FVec Ideal S16x64x64 .f32) (q : Fin 16) (d f : Fin 64) :
    matmul dot_S16x64x64_S16x64x64_S16x64x64_2_1_1_2_0_0 (some .fp32) s u (constant (F := Ideal) S16x64x64 .f32 0x00000000#32) (ix3 q d f)
      = ∑ e : Fin 64, s (ix3 q d e) * u (ix3 q e f) := by
  simp only [matmul]
  rw [Ideal.matmul_constant_zero_apply, ← Equiv.sum_comp (ValueIdx.contrEquiv1 dot_S16x64x64_S16x64x64_S16x64x64_2_1_1_2_0_0 64 rfl rfl).symm]
  refine Finset.sum_congr rfl fun k _ => ?_
  have hk := ValueIdx.contrEquiv1_symm_val dot_S16x64x64_S16x64x64_S16x64x64_2_1_1_2_0_0 64 rfl rfl k
  have el : dot_S16x64x64_S16x64x64_S16x64x64_2_1_1_2_0_0.lhsIdx (ix3 q d f) ((ValueIdx.contrEquiv1 dot_S16x64x64_S16x64x64_S16x64x64_2_1_1_2_0_0 64 rfl rfl).symm k) = ix3 q d k := funext fun a => Fin.ext (by
    match a with
    | ⟨0, _⟩ => exact lhs_sq_0 _ _
    | ⟨1, _⟩ => exact lhs_sq_1 _ _
    | ⟨2, _⟩ => exact (lhs_sq_2 _ _).trans hk)
  have er : dot_S16x64x64_S16x64x64_S16x64x64_2_1_1_2_0_0.rhsIdx (ix3 q d f) ((ValueIdx.contrEquiv1 dot_S16x64x64_S16x64x64_S16x64x64_2_1_1_2_0_0 64 rfl rfl).symm k) = ix3 q k f := funext fun a => Fin.ext (by
    match a with
    | ⟨0, _⟩ => exact rhs_sq_0 _ _
    | ⟨1, _⟩ => exact (rhs_sq_1 _ _).trans hk
    | ⟨2, _⟩ => exact rhs_sq_2 _ _)
  rw [el, er]

theorem lhs_out_0 (i : S16x512x64.Idx) (k : dot_S16x512x64_S16x64x64_S16x512x64_2_1_1_2_0_0.contr.Idx) :
    (dot_S16x512x64_S16x64x64_S16x512x64_2_1_1_2_0_0.lhsIdx i k 0).val = (i 0).val := by
  unfold DotDims.lhsIdx
  rw [dif_pos (show (0 : Fin S16x512x64.rank) ∈ dot_S16x512x64_S16x64x64_S16x512x64_2_1_1_2_0_0.lhsBatch by decide)]
  rfl
theorem lhs_out_1 (i : S16x512x64.Idx) (k : dot_S16x512x64_S16x64x64_S16x512x64_2_1_1_2_0_0.contr.Idx) :
    (dot_S16x512x64_S16x64x64_S16x512x64_2_1_1_2_0_0.lhsIdx i k 1).val = (i 1).val := by
  unfold DotDims.lhsIdx
  rw [dif_neg (show ¬(1 : Fin S16x512x64.rank) ∈ dot_S16x512x64_S16x64x64_S16x512x64_2_1_1_2_0_0.lhsBatch by decide), dif_pos (show (1 : Fin S16x512x64.rank) ∈ dot_S16x512x64_S16x64x64_S16x512x64_2_1_1_2_0_0.lhsNonContracting by decide)]
  rfl
theorem lhs_out_2 (i : S16x512x64.Idx) (k : dot_S16x512x64_S16x64x64_S16x512x64_2_1_1_2_0_0.contr.Idx) :
    (dot_S16x512x64_S16x64x64_S16x512x64_2_1_1_2_0_0.lhsIdx i k 2).val = (k ⟨0, by decide⟩).val :=
  dot_S16x512x64_S16x64x64_S16x512x64_2_1_1_2_0_0.lhsIdx_val_of_single rfl i k
theorem rhs_out_0 (i : S16x512x64.Idx) (k : dot_S16x512x64_S16x64x64_S16x512x64_2_1_1_2_0_0.contr.Idx) :
    (dot_S16x512x64_S16x64x64_S16x512x64_2_1_1_2_0_0.rhsIdx i k 0).val = (i 0).val := by
  unfold DotDims.rhsIdx
  rw [dif_pos (show (0 : Fin S16x64x64.rank) ∈ dot_S16x512x64_S16x64x64_S16x512x64_2_1_1_2_0_0.rhsBatch by decide)]
  rfl
theorem rhs_out_1 (i : S16x512x64.Idx) (k : dot_S16x512x64_S16x64x64_S16x512x64_2_1_1_2_0_0.contr.Idx) :
    (dot_S16x512x64_S16x64x64_S16x512x64_2_1_1_2_0_0.rhsIdx i k 1).val = (k ⟨0, by decide⟩).val :=
  dot_S16x512x64_S16x64x64_S16x512x64_2_1_1_2_0_0.rhsIdx_val_of_single rfl i k
theorem rhs_out_2 (i : S16x512x64.Idx) (k : dot_S16x512x64_S16x64x64_S16x512x64_2_1_1_2_0_0.contr.Idx) :
    (dot_S16x512x64_S16x64x64_S16x512x64_2_1_1_2_0_0.rhsIdx i k 2).val = (i 2).val := by
  unfold DotDims.rhsIdx
  rw [dif_neg (show ¬(2 : Fin S16x64x64.rank) ∈ dot_S16x512x64_S16x64x64_S16x512x64_2_1_1_2_0_0.rhsBatch by decide), dif_pos (show (2 : Fin S16x64x64.rank) ∈ dot_S16x512x64_S16x64x64_S16x512x64_2_1_1_2_0_0.rhsNonContracting by decide)]
  rfl

/-- The third contraction, the slice times a `64 × 64` matrix: entry `(q, n, e)` is the sum over `d` of `x (q, n, d) * w (q, d, e)`. -/
theorem slice_contract_apply (x : FVec Ideal S16x512x64 .f32) (w : FVec Ideal S16x64x64 .f32) (q : Fin 16) (n : Fin 512) (e : Fin 64) :
    matmul dot_S16x512x64_S16x64x64_S16x512x64_2_1_1_2_0_0 (some .fp32) x w (constant (F := Ideal) S16x512x64 .f32 0x00000000#32) (ix3 q n e)
      = ∑ d : Fin 64, x (ix3 q n d) * w (ix3 q d e) := by
  simp only [matmul]
  rw [Ideal.matmul_constant_zero_apply, ← Equiv.sum_comp (ValueIdx.contrEquiv1 dot_S16x512x64_S16x64x64_S16x512x64_2_1_1_2_0_0 64 rfl rfl).symm]
  refine Finset.sum_congr rfl fun k _ => ?_
  have hk := ValueIdx.contrEquiv1_symm_val dot_S16x512x64_S16x64x64_S16x512x64_2_1_1_2_0_0 64 rfl rfl k
  have el : dot_S16x512x64_S16x64x64_S16x512x64_2_1_1_2_0_0.lhsIdx (ix3 q n e) ((ValueIdx.contrEquiv1 dot_S16x512x64_S16x64x64_S16x512x64_2_1_1_2_0_0 64 rfl rfl).symm k) = ix3 q n k := funext fun a => Fin.ext (by
    match a with
    | ⟨0, _⟩ => exact lhs_out_0 _ _
    | ⟨1, _⟩ => exact lhs_out_1 _ _
    | ⟨2, _⟩ => exact (lhs_out_2 _ _).trans hk)
  have er : dot_S16x512x64_S16x64x64_S16x512x64_2_1_1_2_0_0.rhsIdx (ix3 q n e) ((ValueIdx.contrEquiv1 dot_S16x512x64_S16x64x64_S16x512x64_2_1_1_2_0_0 64 rfl rfl).symm k) = ix3 q k e := funext fun a => Fin.ext (by
    match a with
    | ⟨0, _⟩ => exact rhs_out_0 _ _
    | ⟨1, _⟩ => exact (rhs_out_1 _ _).trans hk
    | ⟨2, _⟩ => exact rhs_out_2 _ _)
  rw [el, er]

/-! ## The channel scalars -/

/-- A `[1, 1, 16]` block of scalars, cast to `[16]`, then to `[16, 1, 1]`, then broadcast over a `[16, 64, 64]` vector, reads
    channel `q` of the block at every `(q, d, e)`: the casts keep the row-major position and the broadcast drops `d`, `e`. -/
theorem chan_apply (v : FVec Ideal S1x1x16 .f32) (q : Fin 16) (d e : Fin 64) :
    broadcastTo S16x64x64 (shapeCast S16x1x1 (shapeCast S16 v shapeCasts_S1x1x16_S16) shapeCasts_S16_S16x1x1) broadcasts_S16x1x1_S16x64x64 (ix3 q d e)
      = v (ix3 (0 : Fin 1) (0 : Fin 1) q) := by
  rw [broadcastTo_apply _ broadcasts_S16x1x1_S16x64x64 (ix3 q d e) (ix3 q (0 : Fin 1) (0 : Fin 1)) (fun a => match a with
    | ⟨0, _⟩ => by show q.val = if (16 : Nat) = 1 then 0 else q.val; rw [if_neg (by decide)]
    | ⟨1, _⟩ => by show 0 = if (1 : Nat) = 1 then 0 else d.val; rw [if_pos rfl]
    | ⟨2, _⟩ => by show 0 = if (1 : Nat) = 1 then 0 else e.val; rw [if_pos rfl])]
  rw [shapeCast_apply _ shapeCasts_S16_S16x1x1 (ix3 q (0 : Fin 1) (0 : Fin 1)) (ix1 q) (by
    rw [Shape.rowMajor_val_one, Shape.rowMajor_val_three]; show q.val = (q.val * 1 + 0) * 1 + 0; omega)]
  rw [shapeCast_apply _ shapeCasts_S1x1x16_S16 (ix1 q) (ix3 (0 : Fin 1) (0 : Fin 1) q) (by
    rw [Shape.rowMajor_val_one, Shape.rowMajor_val_three]; show (0 * 1 + 0) * 16 + q.val = q.val; omega)]

/-- The same under the subtraction from the zero splat: `0 - ` channel `q` of the block. -/
theorem neg_chan_apply (v : FVec Ideal S1x1x16 .f32) (q : Fin 16) (d e : Fin 64) :
    broadcastTo S16x64x64 (subf (broadcast S16x1x1 (Scalar.ofBits (F := Ideal) .f32 0x00000000#32))
        (shapeCast S16x1x1 (shapeCast S16 v shapeCasts_S1x1x16_S16) shapeCasts_S16_S16x1x1)) broadcasts_S16x1x1_S16x64x64 (ix3 q d e)
      = 0 - v (ix3 (0 : Fin 1) (0 : Fin 1) q) := by
  rw [broadcastTo_apply _ broadcasts_S16x1x1_S16x64x64 (ix3 q d e) (ix3 q (0 : Fin 1) (0 : Fin 1)) (fun a => match a with
    | ⟨0, _⟩ => by show q.val = if (16 : Nat) = 1 then 0 else q.val; rw [if_neg (by decide)]
    | ⟨1, _⟩ => by show 0 = if (1 : Nat) = 1 then 0 else d.val; rw [if_pos rfl]
    | ⟨2, _⟩ => by show 0 = if (1 : Nat) = 1 then 0 else e.val; rw [if_pos rfl])]
  rw [subf_apply, broadcast_apply]
  rw [shapeCast_apply _ shapeCasts_S16_S16x1x1 (ix3 q (0 : Fin 1) (0 : Fin 1)) (ix1 q) (by
    rw [Shape.rowMajor_val_one, Shape.rowMajor_val_three]; show q.val = (q.val * 1 + 0) * 1 + 0; omega)]
  rw [shapeCast_apply _ shapeCasts_S1x1x16_S16 (ix1 q) (ix3 (0 : Fin 1) (0 : Fin 1) q) (by
    rw [Shape.rowMajor_val_one, Shape.rowMajor_val_three]; show (0 * 1 + 0) * 16 + q.val = q.val; omega)]
  show Ideal.ofBits .f32 0x00000000#32 - _ = _
  rw [Ideal.ofBits_zero_f32]

/-! ## The body's stored value at an index -/

/-- What the body stores at `(q, n, e)` of its output block is the kernel's slice (Proof/GramSpec.lean `kerSlice`) of
    channel `q` of the loaded block, with the scalars the two small blocks hold at `q`. -/
theorem pay_apply (v0 : Vec Ideal S16x512x64 .f32) (v2 v4 : Vec Ideal S1x1x16 .f32) (q : Fin 16) (n : Fin 512) (e : Fin 64) :
    k0_pay1 (F := Ideal) v0 v2 v4 (ix3 q n e)
      = kerSlice (v2 (ix3 (0 : Fin 1) (0 : Fin 1) q)) (v4 (ix3 (0 : Fin 1) (0 : Fin 1) q)) (fun n d => v0 (ix3 q n d)) n e := by
  unfold k0_pay1
  simp only [shapeCast_self]
  rw [addf_apply, slice_contract_apply]
  unfold kerSlice kerMix gramSq gram
  refine congrArg (v0 (ix3 q n e) + ·) (Finset.sum_congr rfl fun d _ => ?_)
  rw [addf_apply, mulf_apply, mulf_apply, neg_chan_apply, chan_apply, cols_contract_apply, rows_contract_apply]
  simp only [rows_contract_apply]

end Cert.KernelIdeal.KerValue

end
-- ==== Proof.KernelBlocks.lean ====
/-
  From the kernel's blocks to its output array.

  The region's arrays are the arguments reshaped: the input as `[512, 512, 64]` (row `r` is slice
  `(r / 64, r % 64)`), the two scalar arrays as `[4, 1, 16]`. Over the `8 × 4` grid, point `t` reads rows
  `16 t … 16 t + 15` of the input and block `t % 4` of each scalar array, and writes rows `16 t … 16 t + 15` of the
  output. Row `16 t + q` has channel `(16 t + q) % 64 = 16 (t % 4) + q`, which is entry `q` of scalar block `t % 4`: so
  the block a point writes back is the restriction of ONE function of the arguments (`flatOut`), the 32 blocks tile
  the output array, and the array after the run is that function.
-/
import proofs.«409281_j68375879352764_4_alg».proof.Proof.KernelPayload
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.ShloMosaic.ValueIdx Cert.GramSpec
open Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds: the arguments, reshaped -/

theorem hz3 : (![0, 0, 0] : Fin 3 → Nat) = fun _ => 0 := funext fun a => by fin_cases a <;> rfl

/-- The region's first array is the first argument with its two leading axes merged: `[8, 64, 512, 64]` as `[512, 512, 64]`. -/
theorem V_v0 (c : Dev nD) :
    (V m c main_v0 : S512x512x64.Idx → EReal)
      = shapeCast S512x512x64 (m ((c : Thread nD τ).loc main_arg0)) shapeCasts_S8x64x512x64_S512x512x64 := by
  show StableHlo.after hostOps0 (fun b => m (c, b)) (Proc.devRef .tc main_v0) = _
  after_results
  rfl

/-- Its second array is the second argument's 64 channels laid out as `[4, 1, 16]`, through `[64]`. -/
theorem V_v3 (c : Dev nD) :
    (V m c main_v3 : S4x1x16.Idx → EReal)
      = shapeCast S4x1x16 (shapeCast S64 (m ((c : Thread nD τ).loc main_arg1)) shapeCasts_S1x64x1x1_S64) shapeCasts_S64_S4x1x16 := by
  show StableHlo.after hostOps0 (fun b => m (c, b)) (Proc.devRef .tc main_v3) = _
  after_results
  rfl

/-- Its third array is the third argument's, the same way. -/
theorem V_v4 (c : Dev nD) :
    (V m c main_v4 : S4x1x16.Idx → EReal)
      = shapeCast S4x1x16 (shapeCast S64 (m ((c : Thread nD τ).loc main_arg2)) shapeCasts_S1x64x1x1_S64) shapeCasts_S64_S4x1x16 := by
  show StableHlo.after hostOps0 (fun b => m (c, b)) (Proc.devRef .tc main_v4) = _
  after_results
  rfl

/-! ## The printed index maps, decided over the 32 grid points -/

/-- Point `t` of the `8 × 4` grid takes block `t` of the 32 row blocks for the input and the output, and block `t % 4` of
    the 4 channel blocks for the two scalar arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val % 4 ∧ win0_1.index t (1 : Fin 3) = 0 ∧ win0_1.index t (2 : Fin 3) = 0
    ∧ win0_2.index t (0 : Fin 3) = t.val % 4 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The region's output array as one function of the arguments -/

/-- Row `r` of the `[512, 512, 64]` output is slice `(r / 64, r % 64)` of the first argument run through the kernel's
    slice function, with the scalars of channel `r % 64`. -/
def flatOut (X : S8x64x512x64.Idx → EReal) (A B : S1x64x1x1.Idx → EReal) : S512x512x64.Idx → EReal := fun i =>
  kerSlice (A (ix4 (0 : Fin 1) (⟨(i 0).val % 64, Nat.mod_lt _ (by decide)⟩ : Fin 64) (0 : Fin 1) (0 : Fin 1)))
    (B (ix4 (0 : Fin 1) (⟨(i 0).val % 64, Nat.mod_lt _ (by decide)⟩ : Fin 64) (0 : Fin 1) (0 : Fin 1)))
    (fun n d => X (ix4 (⟨(i 0).val / 64, by have h : (i 0).val < 512 := (i 0).isLt; omega⟩ : Fin 8)
      (⟨(i 0).val % 64, Nat.mod_lt _ (by decide)⟩ : Fin 64) n d))
    (⟨(i 1).val, (i 1).isLt⟩ : Fin 512) (⟨(i 2).val, (i 2).isLt⟩ : Fin 64)

/-- The body's stored value at a block index `y` is the output function at an array index `i`, once the three loaded
    blocks are known to hold the rows and the scalars that `i` names. -/
theorem block_entry (x0 : Vec Ideal S16x512x64 .f32) (x1 x2 : Vec Ideal S1x1x16 .f32) (y : S16x512x64.Idx) (i : S512x512x64.Idx)
    (X : S8x64x512x64.Idx → EReal) (A B : S1x64x1x1.Idx → EReal)
    (hrow : ∀ (n : Fin 512) (d : Fin 64), x0 (ix3 (y 0) n d)
      = X (ix4 (⟨(i 0).val / 64, by have h : (i 0).val < 512 := (i 0).isLt; omega⟩ : Fin 8) (⟨(i 0).val % 64, Nat.mod_lt _ (by decide)⟩ : Fin 64) n d))
    (ha : x1 (ix3 (0 : Fin 1) (0 : Fin 1) (y 0)) = A (ix4 (0 : Fin 1) (⟨(i 0).val % 64, Nat.mod_lt _ (by decide)⟩ : Fin 64) (0 : Fin 1) (0 : Fin 1)))
    (hb : x2 (ix3 (0 : Fin 1) (0 : Fin 1) (y 0)) = B (ix4 (0 : Fin 1) (⟨(i 0).val % 64, Nat.mod_lt _ (by decide)⟩ : Fin 64) (0 : Fin 1) (0 : Fin 1)))
    (h1 : (i 1).val = (y 1).val) (h2 : (i 2).val = (y 2).val) :
    k0_pay1 (F := Ideal) x0 x1 x2 y = flatOut X A B i := by
  have e1 : (⟨(i 1).val, (i 1).isLt⟩ : Fin 512) = y 1 := Fin.ext h1
  have e2 : (⟨(i 2).val, (i 2).isLt⟩ : Fin 64) = y 2 := Fin.ext h2
  have hX : (fun (n : Fin 512) (d : Fin 64) => X (ix4 (⟨(i 0).val / 64, by have h : (i 0).val < 512 := (i 0).isLt; omega⟩ : Fin 8)
      (⟨(i 0).val % 64, Nat.mod_lt _ (by decide)⟩ : Fin 64) n d)) = fun n d => x0 (ix3 (y 0) n d) :=
    funext fun n => funext fun d => (hrow n d).symm
  unfold flatOut
  rw [← ha, ← hb, hX, e1, e2]
  exact (congrArg (k0_pay1 (F := Ideal) x0 x1 x2) (eq_ix3 y)).trans (pay_apply x0 x1 x2 (y 0) (y 1) (y 2))

/-! ## What each window's block holds at a point -/

/-- The input block at point `t`, at block index `z`, is the first argument at any index `k` with the same row-major
    position as row `16 t + z 0`, `z 1`, `z 2` of the `[512, 512, 64]` array. -/
theorem in_block_row (c : Dev nD) (t : Fin cfg0.N) (z : S16x512x64.Idx) (k : S8x64x512x64.Idx)
    (hk : (((k 0).val * 64 + (k 1).val) * 512 + (k 2).val) * 64 + (k 3).val
      = ((t.val * 16 + (z 0).val) * 512 + (z 1).val) * 64 + (z 2).val) :
    iblk m c 0 t z = m ((c : Thread nD τ).loc main_arg0) k := by
  show V m c main_v0 (((cfg0.win 0).blk t).view.emb z) = _
  rw [V_v0]
  obtain ⟨e0, e1, e2, -⟩ := idx_facts t
  refine shapeCast_apply _ shapeCasts_S8x64x512x64_S512x512x64 _ k ?_
  rw [Shape.rowMajor_val_four, Shape.rowMajor_val_three]
  show (((k 0).val * 64 + (k 1).val) * 512 + (k 2).val) * 64 + (k 3).val
    = ((win0_0.index t (0 : Fin 3) * 16 + 1 * (z 0).val) * 512 + (win0_0.index t (1 : Fin 3) * 512 + 1 * (z 1).val)) * 64
      + (win0_0.index t (2 : Fin 3) * 64 + 1 * (z 2).val)
  rw [e0, e1, e2]
  omega

/-- The first scalar block at point `t` holds, at `q`, channel `(t % 4) * 16 + q` of the second argument. -/
theorem in_block_chan1 (c : Dev nD) (t : Fin cfg0.N) (q : Fin 16) (ch : Fin 64) (hch : ch.val = (t.val % 4) * 16 + q.val) :
    iblk m c 1 t (ix3 (0 : Fin 1) (0 : Fin 1) q) = m ((c : Thread nD τ).loc main_arg1) (ix4 (0 : Fin 1) ch (0 : Fin 1) (0 : Fin 1)) := by
  show V m c main_v3 (((cfg0.win 1).blk t).view.emb (ix3 (0 : Fin 1) (0 : Fin 1) q)) = _
  rw [V_v3]
  obtain ⟨-, -, -, e0, e1, e2, -⟩ := idx_facts t
  rw [shapeCast_apply _ shapeCasts_S64_S4x1x16 _ (ix1 ch) (by
    rw [Shape.rowMajor_val_one, Shape.rowMajor_val_three]
    show ch.val = ((win0_1.index t (0 : Fin 3) * 1 + 1 * 0) * 1 + (win0_1.index t (1 : Fin 3) * 1 + 1 * 0)) * 16
      + (win0_1.index t (2 : Fin 3) * 16 + 1 * q.val)
    rw [e0, e1, e2]
    omega)]
  exact shapeCast_apply _ shapeCasts_S1x64x1x1_S64 (ix1 ch) (ix4 (0 : Fin 1) ch (0 : Fin 1) (0 : Fin 1)) (by
    rw [Shape.rowMajor_val_four, Shape.rowMajor_val_one]
    show ((0 * 64 + ch.val) * 1 + 0) * 1 + 0 = ch.val
    omega)

/-- The second scalar block likewise, of the third argument. -/
theorem in_block_chan2 (c : Dev nD) (t : Fin cfg0.N) (q : Fin 16) (ch : Fin 64) (hch : ch.val = (t.val % 4) * 16 + q.val) :
    iblk m c 2 t (ix3 (0 : Fin 1) (0 : Fin 1) q) = m ((c : Thread nD τ).loc main_arg2) (ix4 (0 : Fin 1) ch (0 : Fin 1) (0 : Fin 1)) := by
  show V m c main_v4 (((cfg0.win 2).blk t).view.emb (ix3 (0 : Fin 1) (0 : Fin 1) q)) = _
  rw [V_v4]
  obtain ⟨-, -, -, -, -, -, e0, e1, e2, -⟩ := idx_facts t
  rw [shapeCast_apply _ shapeCasts_S64_S4x1x16 _ (ix1 ch) (by
    rw [Shape.rowMajor_val_one, Shape.rowMajor_val_three]
    show ch.val = ((win0_2.index t (0 : Fin 3) * 1 + 1 * 0) * 1 + (win0_2.index t (1 : Fin 3) * 1 + 1 * 0)) * 16
      + (win0_2.index t (2 : Fin 3) * 16 + 1 * q.val)
    rw [e0, e1, e2]
    omega)]
  exact shapeCast_apply _ shapeCasts_S1x64x1x1_S64 (ix1 ch) (ix4 (0 : Fin 1) ch (0 : Fin 1) (0 : Fin 1)) (by
    rw [Shape.rowMajor_val_four, Shape.rowMajor_val_one]
    show ((0 * 64 + ch.val) * 1 + 0) * 1 + 0 = ch.val
    omega)

/-! ## From blocks to the array -/

/-- The grid has 32 points. -/
theorem point_lt (t : Fin cfg0.N) : t.val < 32 := lt_of_lt_of_eq t.isLt N_0

/-- What point `t` writes back is block `t` of the output function of the arguments. -/
theorem flushed_eq (c : Dev nD) (t : Fin cfg0.N) :
    (dats m 0 c).flushed 3 t = ((cfg0.win 3).blk t).view.read (Elt Ideal)
      (flatOut (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S16x512x64) hz3, View.ld_unit_zero (S := S1x1x16) hz3]
  funext y
  have ht := point_lt t
  obtain ⟨-, -, -, -, -, -, -, -, -, e0, e1, e2⟩ := idx_facts t
  have hy0 : (y 0).val < 16 := (y 0).isLt
  have hi0 : ((((cfg0.win 3).blk t).view.emb y) (0 : Fin 3)).val = t.val * 16 + (y 0).val := by
    show win0_3.index t (0 : Fin 3) * 16 + 1 * (y 0).val = _
    rw [e0]; omega
  have hi1 : ((((cfg0.win 3).blk t).view.emb y) (1 : Fin 3)).val = (y 1).val := by
    show win0_3.index t (1 : Fin 3) * 512 + 1 * (y 1).val = _
    rw [e1]; omega
  have hi2 : ((((cfg0.win 3).blk t).view.emb y) (2 : Fin 3)).val = (y 2).val := by
    show win0_3.index t (2 : Fin 3) * 64 + 1 * (y 2).val = _
    rw [e2]; omega
  exact block_entry (iblk m c 0 t) (iblk m c 1 t) (iblk m c 2 t) y (((cfg0.win 3).blk t).view.emb y)
    (m ((c : Thread nD τ).loc main_arg0)) (m ((c : Thread nD τ).loc main_arg1)) (m ((c : Thread nD τ).loc main_arg2))
    (fun n d => in_block_row m c t (ix3 (y 0) n d) _ (by
      show (((((((cfg0.win 3).blk t).view.emb y) (0 : Fin 3)).val / 64) * 64 + ((((cfg0.win 3).blk t).view.emb y) (0 : Fin 3)).val % 64) * 512 + n.val) * 64 + d.val
        = ((t.val * 16 + (y 0).val) * 512 + n.val) * 64 + d.val
      rw [hi0]; omega))
    (in_block_chan1 m c t (y 0) _ (by
      show ((((cfg0.win 3).blk t).view.emb y) (0 : Fin 3)).val % 64 = (t.val % 4) * 16 + (y 0).val
      rw [hi0]; omega))
    (in_block_chan2 m c t (y 0) _ (by
      show ((((cfg0.win 3).blk t).view.emb y) (0 : Fin 3)).val % 64 = (t.val % 4) * 16 + (y 0).val
      rw [hi0]; omega))
    hi1 hi2

/-- An index of the output array is in point `t`'s block iff each coordinate is in the block's range on its axis. -/
theorem mem_blk3 (t : Fin cfg0.N) (i : S512x512x64.Idx) :
    i ∈ ((cfg0.win 3).blk t).view.set ↔ ∀ a : Fin 3, win0_3.index t a * S16x512x64.size a ≤ (i a).val
      ∧ (i a).val < win0_3.index t a * S16x512x64.size a + S16x512x64.size a := by
  show i ∈ ((View.whole main_v5).slice (win0_3.rect t)).set ↔ _
  rw [View.set_slice_whole, Rect.mem_set_unit]
  exact Iff.rfl

/-- Every index of the output array is in some point's block: row `r` is in block `r / 16`. -/
theorem cover3 (i : S512x512x64.Idx) :
    ∃ t : Fin cfg0.N, (cfg0.win 3).flush t = true ∧ i ∈ ((cfg0.win 3).blk t).view.set := by
  have hi0 : (i 0).val < 512 := (i 0).isLt
  have hi1 : (i 1).val < 512 := (i 1).isLt
  have hi2 : (i 2).val < 64 := (i 2).isLt
  have hN : (i 0).val / 16 < cfg0.N := lt_of_lt_of_eq (by omega : (i 0).val / 16 < 32) N_0.symm
  refine ⟨⟨(i 0).val / 16, hN⟩, flush0_3 _, ?_⟩
  rw [mem_blk3]
  obtain ⟨-, -, -, -, -, -, -, -, -, e0, e1, e2⟩ := idx_facts ⟨(i 0).val / 16, hN⟩
  intro a
  match a with
  | ⟨0, _⟩ =>
    show win0_3.index ⟨(i 0).val / 16, hN⟩ (0 : Fin 3) * 16 ≤ (i 0).val ∧ (i 0).val < win0_3.index ⟨(i 0).val / 16, hN⟩ (0 : Fin 3) * 16 + 16
    rw [e0]; show (i 0).val / 16 * 16 ≤ (i 0).val ∧ (i 0).val < (i 0).val / 16 * 16 + 16; omega
  | ⟨1, _⟩ =>
    show win0_3.index ⟨(i 0).val / 16, hN⟩ (1 : Fin 3) * 512 ≤ (i 1).val ∧ (i 1).val < win0_3.index ⟨(i 0).val / 16, hN⟩ (1 : Fin 3) * 512 + 512
    rw [e1]; omega
  | ⟨2, _⟩ =>
    show win0_3.index ⟨(i 0).val / 16, hN⟩ (2 : Fin 3) * 64 ≤ (i 2).val ∧ (i 2).val < win0_3.index ⟨(i 0).val / 16, hN⟩ (2 : Fin 3) * 64 + 64
    rw [e2]; omega

/-- The region's output array after the run is the output function of the arguments. -/
theorem final3 (c : Dev nD) : (dats m 0 c).arrAt 3 cfg0.N
    = flatOut (m ((c : Thread nD τ).loc main_arg0)) (m ((c : Thread nD τ).loc main_arg1)) (m ((c : Thread nD τ).loc main_arg2)) :=
  (dats m 0 c).arrAt_eq_of_cover 3 _ (fun t _ => flushed_eq m c t) cover3

end Cert.KernelIdeal.KerValue

end
-- ==== Proof.KernelResult.lean ====
/-
  The kernel program's result, read at an index.

  After the region, one host line splits the leading axis of the `[512, 512, 64]` output back into batch and channel.
  So the entry `(β, c, n, e)` of the program's result is row `64 β + c` of the region's output, which is the kernel's
  slice (Proof/GramSpec.lean `kerSlice`) of the `(β, c)` slice of the first argument with the scalars of channel `c`.
-/
import proofs.«409281_j68375879352764_4_alg».proof.Proof.KernelBlocks

set_option maxRecDepth 16384

noncomputable section

namespace Cert.KernelIdeal.KerValue

open Cert.KernelIdeal Cert.KernelIdeal.Gen Idealize.ShloMosaic Idealize.ShloMosaic.TcCoe Idealize.ShloMosaic.ValueIdx Cert.GramSpec
open Idealize.SL.Sem Idealize.ShloMosaic.StableHlo
open Idealize.ShloMosaic.Pipeline (Dat)

/-- The program's result: the region's output with its leading axis split into batch and channel. -/
def resultOut (X : S8x64x512x64.Idx → EReal) (A B : S1x64x1x1.Idx → EReal) : S8x64x512x64.Idx → EReal :=
  shapeCast S8x64x512x64 (flatOut X A B) shapeCasts_S512x512x64_S8x64x512x64

/-- At `(β, c, n, e)` it is the kernel's slice of the `(β, c)` slice, with the scalars of channel `c`. -/
theorem resultOut_apply (X : S8x64x512x64.Idx → EReal) (A B : S1x64x1x1.Idx → EReal) (β : Fin 8) (ch : Fin 64) (n : Fin 512) (e : Fin 64) :
    resultOut X A B (ix4 β ch n e)
      = kerSlice (A (ix4 (0 : Fin 1) ch (0 : Fin 1) (0 : Fin 1))) (B (ix4 (0 : Fin 1) ch (0 : Fin 1) (0 : Fin 1)))
          (fun n d => X (ix4 β ch n d)) n e := by
  have hβ' : β.val < 8 := β.isLt
  have hch' : ch.val < 64 := ch.isLt
  have hr : β.val * 64 + ch.val < 512 := by omega
  unfold resultOut
  rw [shapeCast_apply _ shapeCasts_S512x512x64_S8x64x512x64 (ix4 β ch n e) (ix3 (⟨β.val * 64 + ch.val, hr⟩ : Fin 512) n e) (by
    rw [Shape.rowMajor_val_three, Shape.rowMajor_val_four]
    rfl)]
  have hch : (⟨(β.val * 64 + ch.val) % 64, Nat.mod_lt _ (by decide)⟩ : Fin 64) = ch :=
    Fin.ext (by show (β.val * 64 + ch.val) % 64 = ch.val; omega)
  have hβ : (⟨(β.val * 64 + ch.val) / 64, by omega⟩ : Fin 8) = β :=
    Fin.ext (by show (β.val * 64 + ch.val) / 64 = β.val; omega)
  show kerSlice (A (ix4 (0 : Fin 1) (⟨(β.val * 64 + ch.val) % 64, Nat.mod_lt _ (by decide)⟩ : Fin 64) (0 : Fin 1) (0 : Fin 1)))
      (B (ix4 (0 : Fin 1) (⟨(β.val * 64 + ch.val) % 64, Nat.mod_lt _ (by decide)⟩ : Fin 64) (0 : Fin 1) (0 : Fin 1)))
      (fun n' d => X (ix4 (⟨(β.val * 64 + ch.val) / 64, by omega⟩ : Fin 8) (⟨(β.val * 64 + ch.val) % 64, Nat.mod_lt _ (by decide)⟩ : Fin 64) n' d))
      n e = _
  rw [hch, hβ]

variable (m : (ℓ : Loc nD τ sig) → Buf (Elt Ideal) ℓ) (ρ : Dev nD → PrngReg)

/-- The host line after the region leaves the program's result buffer at `resultOut` of the arguments. -/
theorem tail_v6 (c : Dev nD) :
    Pipeline.afterTail₀ cfgs (dats m) 0 (V0 m) [hostOps1] c main_v6
      = resultOut (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  rw [(Pipeline.withArrays_arr spec0 launch0.win.arr_inj c _ _ 3).trans (final3 m c)]
  rfl

/-- The frame run with the result named: every weakly fair execution of the kernel program ends with its result at
    `resultOut` of the arguments, and the arguments unchanged. -/
theorem run_value : θ_run defs (onTc (τ := τ) (main (F := Ideal))) ⟨m, fun _ => 0, ρ⟩ fun r => ∀ c : Dev nD,
      r.2.mem ((c.tc : Thread nD τ).loc main_v6)
        = resultOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (Pipeline.mem_restRefs_of main_v6 (by decide) (by decide))).trans (tail_v6 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KerValue

end
-- ==== Proof.Finite.lean ====
/-
  Finiteness, out of the precondition.

  The precondition is the conjunction of three `all (|x| < +inf)` tests, one per argument. At the ideal instance the
  comparison is the order of the extended reals, the absolute value is `max x (-x)`, and the literal is `⊤`; an
  extended real with `max x (-x) < ⊤` is neither `⊤` nor `⊥`, so it is a real number. Hence every entry of every
  argument is a real.
-/
import proofs.«409281_j68375879352764_4_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

variable [Facts]
open Facts

instance : Subsingleton S_.Idx := ⟨fun a b => funext fun d => d.elim0⟩

/-- The literal the inputs are compared with is `+inf`. -/
theorem ofBits_inf : Ideal.ofBits .f32 0x7F800000#32 = (⊤ : EReal) := by
  simp [Ideal.ofBits, Ideal.ieee]

/-- An extended real whose absolute value is strictly below `⊤` is a real number. -/
theorem real_of_abs_lt_top (x : EReal) (h : max x (-x) < ⊤) : ∃ r : ℝ, x = r := by
  induction x using EReal.rec with
  | bot => simp at h
  | coe r => exact ⟨r, rfl⟩
  | top => simp at h

/-- A bit made from a Boolean is `1` exactly when the Boolean is true. -/
theorem ofBool_eq_one (b : Bool) : BitVec.ofBool b = 1#1 ↔ b = true := by cases b <;> decide

/-- The same from the comparison's bit. -/
theorem real_of_cmp (x : EReal) (h : Ideal.cmp .olt (max x (-x)) (Ideal.ofBits .f32 0x7F800000#32) = 1#1) : ∃ r : ℝ, x = r := by
  apply real_of_abs_lt_top
  rw [ofBits_inf] at h
  simpa [Ideal.cmp, ofBool_eq_one] using h

/-- Under the precondition every entry of the three arguments is a real number. -/
theorem reals_of_pre (x0 : FVec Ideal S8x64x512x64 .f32) (x1 x2 : FVec Ideal S1x64x1x1 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact real_of_cmp (x0 i) (Host.reduce_andi_all _ _ reducesTo_S8x64x512x64_S_d0_1_2_3 h_S_ ValueIdx.ix0 h0' i)
  · exact real_of_cmp (x1 i) (Host.reduce_andi_all _ _ reducesTo_S1x64x1x1_S_d0_1_2_3 h_S_ ValueIdx.ix0 h1 i)
  · exact real_of_cmp (x2 i) (Host.reduce_andi_all _ _ reducesTo_S1x64x1x1_S_d0_1_2_3 h_S_ ValueIdx.ix0 h2 i)

end Cert.Pre_finite_inputs.Finite

end
-- ==== Proof.lean ====
/-
  The kernel computes, for each (batch, channel) slice `X` (512 rows, 64 columns) and the channel's scalars `a`, `b`,
  `X + X (-a • XᵀX + b • XᵀX XᵀX)` through the small `64 × 64` Gram matrix, never forming a `512 × 512` matrix; the
  reference computes `X + (-a • XXᵀ + b • XXᵀ XXᵀ) X` through the large outer matrix. Both are
  `X - a • (X XᵀX) + b • (X XᵀX XᵀX)`: associativity of the matrix product and its linearity in each factor
  (Proof/GramSpec.lean, in the reals). Those laws move factors across sums, so they need the entries to be real numbers,
  which is what the precondition gives (Proof/Finite.lean). The kernel's negation is `0 - a` and the reference's is
  `-a`: one number.

  The kernel's side: what the body stores at an index of its block (Proof/KernelPayload.lean: three contractions and
  two broadcast scalars read at an index), the blocks assembled into the `[512, 512, 64]` array over the `8 × 4` grid
  (Proof/KernelBlocks.lean: point `t` writes rows `16 t … 16 t + 15`, with the scalars of channels
  `16 (t % 4) … 16 (t % 4) + 15`, and `(16 t + q) % 64 = 16 (t % 4) + q`), and the reshapes around the region
  (Proof/KernelResult.lean). The reference's side: its ten operations read at an index (Proof/RefSide.lean).
  The three frames are the programs' runs with the results dropped; nothing was rewritten by the idealization, so
  `preserves` has nothing to state.
-/
import proofs.«409281_j68375879352764_4_alg».proof.Defs
import proofs.«409281_j68375879352764_4_alg».proof.Proof.Gen.Kernel
import proofs.«409281_j68375879352764_4_alg».proof.Proof.Gen.Kernel.Skeleton
import proofs.«409281_j68375879352764_4_alg».proof.Proof.Gen.Kernel.Launch
import proofs.«409281_j68375879352764_4_alg».proof.Proof.Gen.Kernel.Points
import proofs.«409281_j68375879352764_4_alg».proof.Proof.Gen.Kernel.Frame
import proofs.«409281_j68375879352764_4_alg».proof.Proof.Gen.KernelIdeal
import proofs.«409281_j68375879352764_4_alg».proof.Proof.Gen.KernelIdeal.Skeleton
import proofs.«409281_j68375879352764_4_alg».proof.Proof.Gen.KernelIdeal.Launch
import proofs.«409281_j68375879352764_4_alg».proof.Proof.Gen.KernelIdeal.Points
import proofs.«409281_j68375879352764_4_alg».proof.Proof.Gen.KernelIdeal.Frame
import proofs.«409281_j68375879352764_4_alg».proof.Proof.Gen.ReferenceIdeal
import proofs.«409281_j68375879352764_4_alg».proof.Proof.Gen.Pre_finite_inputs
import proofs.«409281_j68375879352764_4_alg».proof.Proof.Gen.ReferenceIdeal.Run
import proofs.«409281_j68375879352764_4_alg».proof.Proof.Gen.ReferenceIdeal.Read
import proofs.«409281_j68375879352764_4_alg».proof.Proof.GramSpec
import proofs.«409281_j68375879352764_4_alg».proof.Proof.RefSide
import proofs.«409281_j68375879352764_4_alg».proof.Proof.KernelResult
import proofs.«409281_j68375879352764_4_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same array: entry `(β, c, n, e)` is the kernel's
    slice on one side and the reference's slice on the other, of the same real slice and scalars, and those are equal. -/
theorem algebraic : Cert.algebraic_KernelIdeal_ReferenceIdeal := by
  intro m ρ m' ρ' hpre hagree
  refine ⟨fun c => Cert.KernelIdeal.KerValue.resultOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v9_eq]
  obtain ⟨hx, ha, hb⟩ := Cert.Pre_finite_inputs.Finite.reals_of_pre _ _ _ (hpre c)
  funext i
  obtain ⟨β, ch, n, e, rfl⟩ : ∃ (β : Fin 8) (ch : Fin 64) (n : Fin 512) (e : Fin 64), i = ValueIdx.ix4 β ch n e :=
    ⟨i 0, i 1, i 2, i 3, ValueIdx.eq_ix4 i⟩
  rw [Cert.ReferenceIdeal.RefValue.result_apply]
  show _ = Cert.KernelIdeal.KerValue.resultOut _ _ _ (ValueIdx.ix4 β ch n e)
  rw [Cert.KernelIdeal.KerValue.resultOut_apply]
  exact (Cert.GramSpec.kerSlice_eq_refSlice_of_real _ _ _ (ha _) (hb _) (fun n d => hx _) n e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
